-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  One graph-convolution layer's dense part, entry by entry. A node's output feature q is
      (sum over k of agg(k) * Wl(k, q)) + b(q) + (sum over k of h(k) * Wr(k, q)),
  where agg is the node's normalised neighbourhood sum and h its own feature row; the first layer then
  clamps the entry below at zero. The sums are over the 64 input features, on the extended reals, in
  exactly this association: both programs add the bias to the first product before the second product.
-/
import Idealize.ShloMosaic.PureOps.Ideal
import Idealize.ShloMosaic.Lib.ValueIdx

noncomputable section

open scoped BigOperators

namespace Cert.Sage

open Idealize.ShloMosaic Idealize.ShloMosaic.ValueIdx

/-- Output feature `q` of one node: its aggregated row `arow` through `wl`, plus the bias, plus its own row
    `hrow` through `wr`. -/
def affineRow (arow hrow : Fin 64 → EReal) (wl wr : (⟨2, ![64, 64]⟩ : Shape).Idx → EReal) (b : Fin 64 → EReal)
    (q : Fin 64) : EReal :=
  ((∑ k : Fin 64, arow k * wl (ix2 k q)) + b q) + ∑ k : Fin 64, hrow k * wr (ix2 k q)

/-- The first layer's activation: the larger of the entry and the float word zero. -/
def relu0 (x : EReal) : EReal := max x (Ideal.ofBits .f32 0x00000000#32)

/-- Rows that agree entry by entry, with equal weights and biases, give equal output features. -/
theorem affineRow_congr {arow arow' hrow hrow' : Fin 64 → EReal} {wl wl' wr wr' : (⟨2, ![64, 64]⟩ : Shape).Idx → EReal}
    {b b' : Fin 64 → EReal} (ha : ∀ k, arow k = arow' k) (hh : ∀ k, hrow k = hrow' k) (hwl : wl = wl') (hwr : wr = wr')
    (hb : ∀ q, b q = b' q) (q : Fin 64) : affineRow arow hrow wl wr b q = affineRow arow' hrow' wl' wr' b' q := by
  subst hwl hwr
  unfold affineRow
  rw [hb q]
  exact congrArg₂ (· + ·) (congrArg (· + b' q) (Finset.sum_congr rfl fun k _ => by rw [ha k]))
    (Finset.sum_congr rfl fun k _ => by rw [hh k])

end Cert.Sage

end
-- ==== Proof.Payload.lean ====
/-
  What one grid step of each dense kernel stores, read at one entry. The body casts its four matrix
  operands to bf16 (the identity on the extended reals), multiplies the aggregated block by the first weight
  matrix into a zero accumulator, adds the bias row broadcast down the block, adds the product of the
  feature block with the second weight matrix, and (first kernel only) clamps below at zero: entry (p, q)
  of the stored block is the layer's output feature q of the block's row p.
-/
import proofs.«116169_j61220463837359_1_alg».proof.Proof.Gen.KernelIdeal.Skeleton
import proofs.«116169_j61220463837359_1_alg».proof.Proof.Layer
import Idealize.ShloMosaic.Lib.ValueIdx
import Idealize.ShloMosaic.Lib.Pipeline.Value
import Idealize.ShloMosaic.PureOps.Ideal.Laws

noncomputable section

open scoped BigOperators

namespace Cert.KernelIdeal.Sage

open Cert.KernelIdeal Cert.KernelIdeal.Gen Cert.Sage Idealize.ShloMosaic Idealize.ShloMosaic.ValueIdx

/-- Axis 0 of the left operand's index is the output row. -/
private theorem lhs_dot_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Axis 1 of the left operand's index is the contracted coordinate. -/
private theorem lhs_dot_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- Axis 0 of the right operand's index is the contracted coordinate. -/
private theorem rhs_dot_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- Axis 1 of the right operand's index is the output column. -/
private theorem rhs_dot_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product into the zero accumulator, its operands narrowed to bf16, at entry (p, q): the sum over the 64
    contracted coordinates of left (p, k) times right (k, q). -/
theorem matmul0_apply (l : FVec Ideal S5000x64 .f32) (r : FVec Ideal S64x64 .f32) (p : Fin 5000) (q : Fin 64) :
    matmul (F := Ideal) dot_S5000x64_S64x64_S5000x64_1_0_0_1_n_n none (truncf (F := Ideal) (φ := .f32) .bf16 l bitsLt_bf16_f32)
      (truncf (F := Ideal) (φ := .f32) .bf16 r bitsLt_bf16_f32)
      (constant (F := Ideal) S5000x64 .f32 0x00000000#32) (ix2 p q) = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]
  rfl

/-- The bias row broadcast down the block reads the row at its one row index. -/
private theorem bias_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- Entry (p, q) of the first kernel's stored block. -/
theorem pay0_apply (a h : Vec Ideal S5000x64 .f32) (wl wr : Vec Ideal S64x64 .f32) (b : Vec Ideal S1x64 .f32)
    (p : Fin 5000) (q : Fin 64) :
    k0_pay1 (F := Ideal) a h wl wr b (ix2 p q)
      = relu0 (affineRow (fun k => a (ix2 p k)) (fun k => h (ix2 p k)) wl wr (fun q' => b (ix2 (0 : Fin 1) q')) q) := by
  unfold k0_pay1 relu0 affineRow
  rw [shapeCast_self, shapeCast_self]
  simp only [maximumf_apply, addf_apply, broadcast_apply, matmul0_apply, bias_apply, Ideal.ofBits_def]

/-- Entry (p, q) of the second kernel's stored block. -/
theorem pay1_apply (a h : Vec Ideal S5000x64 .f32) (wl wr : Vec Ideal S64x64 .f32) (b : Vec Ideal S1x64 .f32)
    (p : Fin 5000) (q : Fin 64) :
    k1_pay1 (F := Ideal) a h wl wr b (ix2 p q)
      = affineRow (fun k => a (ix2 p k)) (fun k => h (ix2 p k)) wl wr (fun q' => b (ix2 (0 : Fin 1) q')) q := by
  unfold k1_pay1 affineRow
  rw [shapeCast_self, shapeCast_self, shapeCast_self]
  simp only [addf_apply, matmul0_apply, bias_apply]

end Cert.KernelIdeal.Sage

end
-- ==== Proof.Region0.lean ====
/-
  The first dense kernel's output array, as one function of the arrays its operands stage.
  The kernel's grid has 20 steps; step t stages rows 5000 t .. 5000 t + 4999 of the aggregated features and of the
  node features, the two 64 x 64 weight matrices and the 1 x 64 bias whole, and writes back the same 5000 rows
  of the output. A block's entry (p, q) is therefore the array's entry (5000 t + p, q), the 20 output blocks
  tile the 100000 rows, and the array ends holding, at every (node, feature), that node's clamped output feature.
-/
import proofs.«116169_j61220463837359_1_alg».proof.Proof.Gen.KernelIdeal.Frame
import proofs.«116169_j61220463837359_1_alg».proof.Proof.Payload
import Idealize.ShloMosaic.Lib.Pipeline.Value
import Idealize.ShloMosaic.Lib.ValueIdx

set_option maxRecDepth 16384

noncomputable section

open scoped BigOperators

namespace Cert.KernelIdeal.Sage

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The node (row) and the feature (column) of an index of a 100000 x 64 array. -/
abbrev rowOf (i : S100000x64.Idx) : Fin 100000 := ⟨(i 0).val, (i 0).isLt⟩
abbrev colOf (i : S100000x64.Idx) : Fin 64 := ⟨(i 1).val, (i 1).isLt⟩

/-- The first layer's output: at (node, feature) the clamped output feature of that node, from the rows of the
    aggregated array `A` and of the feature array `H`. -/
def layerOut0 (A H : Vec Ideal S100000x64 .f32) (WL WR : Vec Ideal S64x64 .f32) (B : Vec Ideal S1x64 .f32) : Vec Ideal S100000x64 .f32 :=
  fun i => relu0 (affineRow (fun k => A (ix2 (rowOf i) k)) (fun k => H (ix2 (rowOf i) k)) WL WR (fun q => B (ix2 (0 : Fin 1) q)) (colOf i))

/-- The printed index maps over the grid: the two row-tiled inputs move with the output's row tile, the weights and
    the bias stay at block 0, and the output's row tile is one of the 20. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every one of the 20 row tiles is some grid step's output block. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- The array row that row `p` of point `t`'s block is. -/
def arow0 (t : Fin cfg0.N) (p : Fin 5000) : Fin 100000 :=
  ⟨win0_5.index t (0 : Fin 2) * 5000 + p.val, by
    have h := (idx_facts0 t).2.2.2.2.2.2.2.2.2.2.2
    have hp := p.isLt
    omega⟩

/-- Entry (p, q) of step `t`'s output block sits at (5000 t + p, q) of the output array. -/
theorem emb0_5 (t : Fin cfg0.N) (p : Fin 5000) (q : Fin 64) :
    ((cfg0.win 5).blk t).view.emb (ix2 p q) = ix2 (arow0 t p) q := by
  obtain ⟨e0, e1, e2, e3, e4, e5, e6, e7, e8, e9, e10, e11⟩ := idx_facts0 t
  funext a; apply Fin.ext
  match a with
  | ⟨0, _⟩ => show win0_5.index t (0 : Fin 2) * 5000 + 1 * p.val = win0_5.index t (0 : Fin 2) * 5000 + p.val; omega
  | ⟨1, _⟩ => show win0_5.index t (1 : Fin 2) * 64 + 1 * q.val = q.val; omega

/-- Step `t`'s block of the aggregated features at (p, k) is the array's entry (5000 t + p, k). -/
theorem blk0_0 (c : Dev nD) (t : Fin cfg0.N) (p : Fin 5000) (k : Fin 64) :
    iblk0 V c 0 t (ix2 p k) = V c main_v24 (ix2 (arow0 t p) k) := by
  obtain ⟨e0, e1, e2, e3, e4, e5, e6, e7, e8, e9, e10, e11⟩ := idx_facts0 t
  show V c main_v24 (((cfg0.win 0).blk t).view.emb (ix2 p k)) = V c main_v24 (ix2 (arow0 t p) k)
  refine congrArg (V c main_v24) ?_
  funext a; apply Fin.ext
  match a with
  | ⟨0, _⟩ => show win0_0.index t (0 : Fin 2) * 5000 + 1 * p.val = win0_5.index t (0 : Fin 2) * 5000 + p.val; omega
  | ⟨1, _⟩ => show win0_0.index t (1 : Fin 2) * 64 + 1 * k.val = k.val; omega

/-- Step `t`'s block of the node features at (p, k) is the array's entry (5000 t + p, k). -/
theorem blk0_1 (c : Dev nD) (t : Fin cfg0.N) (p : Fin 5000) (k : Fin 64) :
    iblk0 V c 1 t (ix2 p k) = V c main_arg0 (ix2 (arow0 t p) k) := by
  obtain ⟨e0, e1, e2, e3, e4, e5, e6, e7, e8, e9, e10, e11⟩ := idx_facts0 t
  show V c main_arg0 (((cfg0.win 1).blk t).view.emb (ix2 p k)) = V c main_arg0 (ix2 (arow0 t p) k)
  refine congrArg (V c main_arg0) ?_
  funext a; apply Fin.ext
  match a with
  | ⟨0, _⟩ => show win0_1.index t (0 : Fin 2) * 5000 + 1 * p.val = win0_5.index t (0 : Fin 2) * 5000 + p.val; omega
  | ⟨1, _⟩ => show win0_1.index t (1 : Fin 2) * 64 + 1 * k.val = k.val; omega

/-- The first weight matrix is staged whole at every step. -/
theorem blk0_2 (c : Dev nD) (t : Fin cfg0.N) (y : S64x64.Idx) : iblk0 V c 2 t y = V c main_arg2 y := by
  obtain ⟨e0, e1, e2, e3, e4, e5, e6, e7, e8, e9, e10, e11⟩ := idx_facts0 t
  show V c main_arg2 (((cfg0.win 2).blk t).view.emb y) = V c main_arg2 y
  refine congrArg (V c main_arg2) ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The second weight matrix is staged whole at every step. -/
theorem blk0_4 (c : Dev nD) (t : Fin cfg0.N) (y : S64x64.Idx) : iblk0 V c 4 t y = V c main_arg4 y := by
  obtain ⟨e0, e1, e2, e3, e4, e5, e6, e7, e8, e9, e10, e11⟩ := idx_facts0 t
  show V c main_arg4 (((cfg0.win 4).blk t).view.emb y) = V c main_arg4 y
  refine congrArg (V c main_arg4) ?_
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The bias row is staged whole at every step. -/
theorem blk0_3 (c : Dev nD) (t : Fin cfg0.N) (y : S1x64.Idx) : iblk0 V c 3 t y = V c main_v25 y := by
  obtain ⟨e0, e1, e2, e3, e4, e5, e6, e7, e8, e9, e10, e11⟩ := idx_facts0 t
  show V c main_v25 (((cfg0.win 3).blk t).view.emb y) = V c main_v25 y
  refine congrArg (V c main_v25) ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- What step `t` stores at a block entry is the layer's output at the array entry the block entry sits at. -/
theorem point0 (c : Dev nD) (t : Fin cfg0.N) (j : S5000x64.Idx) :
    k0_pay1 (iblk0 V c 0 t) (iblk0 V c 1 t) (iblk0 V c 2 t) (iblk0 V c 4 t) (iblk0 V c 3 t) j
      = layerOut0 (V c main_v24) (V c main_arg0) (V c main_arg2) (V c main_arg4) (V c main_v25) (((cfg0.win 5).blk t).view.emb j) := by
  obtain ⟨p, q, rfl⟩ : ∃ (p : Fin 5000) (q : Fin 64), j = ix2 p q := ⟨j 0, j 1, eq_ix2 j⟩
  refine (pay0_apply (iblk0 V c 0 t) (iblk0 V c 1 t) (iblk0 V c 2 t) (iblk0 V c 4 t) (iblk0 V c 3 t) p q).trans ?_
  rw [emb0_5 t p q]
  unfold layerOut0
  refine congrArg relu0 ?_
  exact affineRow_congr (fun k => blk0_0 V c t p k) (fun k => blk0_1 V c t p k) (funext fun y => blk0_2 V c t y)
    (funext fun y => blk0_4 V c t y) (fun q' => blk0_3 V c t (ix2 (0 : Fin 1) q')) q

/-- What step `t` writes back is block `t` of the layer's output. -/
theorem flushed0_eq (c : Dev nD) (t : Fin cfg0.N) :
    (dat0 V c).flushed 5 t = ((cfg0.win 5).blk t).view.read (Elt Ideal)
      (layerOut0 (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  exact point0 V c t j

/-- An index of the layer's output array lies in point `t`'s output block iff each coordinate is in the block's range. -/
theorem mem_outblk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Every node's row is written back by the grid step that owns its 5000-row tile. -/
theorem covered0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_outblk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The first kernel's output array after its region, whatever the region found in its operands' arrays. -/
theorem region0_value (c : Dev nD) :
    (dat0 V c).arrAt 5 cfg0.N = layerOut0 (V c main_v24) (V c main_arg0) (V c main_arg2) (V c main_arg4) (V c main_v25) :=
  (dat0 V c).arrAt_eq_of_cover 5 (layerOut0 (V c main_v24) (V c main_arg0) (V c main_arg2) (V c main_arg4) (V c main_v25))
    (fun t _ => flushed0_eq V c t) covered0

end Cert.KernelIdeal.Sage

end
-- ==== Proof.Region1.lean ====
/-
  The second dense kernel's output array, as one function of the arrays its operands stage. The tiling is the
  first kernel's: 20 grid steps of 5000 rows, the weights and the bias staged whole; the body has no clamp, so
  the array ends holding, at every (node, feature), that node's output feature of the second layer.
-/
import proofs.«116169_j61220463837359_1_alg».proof.Proof.Region0

set_option maxRecDepth 16384

noncomputable section

open scoped BigOperators

namespace Cert.KernelIdeal.Sage

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second layer's output: at (node, feature) the output feature of that node, from the rows of the
    aggregated array `A` and of the feature array `H`. -/
def layerOut1 (A H : Vec Ideal S100000x64 .f32) (WL WR : Vec Ideal S64x64 .f32) (B : Vec Ideal S1x64 .f32) : Vec Ideal S100000x64 .f32 :=
  fun i => affineRow (fun k => A (ix2 (rowOf i) k)) (fun k => H (ix2 (rowOf i) k)) WL WR (fun q => B (ix2 (0 : Fin 1) q)) (colOf i)

/-- The printed index maps over the second grid: the two row-tiled inputs move with the output's row tile, the
    weights and the bias stay at block 0, and the output's row tile is one of the 20. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every one of the 20 row tiles is some grid step's output block. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- The array row that row `p` of step `t`'s block is. -/
def arow1 (t : Fin cfg1.N) (p : Fin 5000) : Fin 100000 :=
  ⟨win1_5.index t (0 : Fin 2) * 5000 + p.val, by
    have h := (idx_facts1 t).2.2.2.2.2.2.2.2.2.2.2
    have hp := p.isLt
    omega⟩

/-- Entry (p, q) of step `t`'s output block sits at (5000 t + p, q) of the output array. -/
theorem emb1_5 (t : Fin cfg1.N) (p : Fin 5000) (q : Fin 64) :
    ((cfg1.win 5).blk t).view.emb (ix2 p q) = ix2 (arow1 t p) q := by
  obtain ⟨e0, e1, e2, e3, e4, e5, e6, e7, e8, e9, e10, e11⟩ := idx_facts1 t
  funext a; apply Fin.ext
  match a with
  | ⟨0, _⟩ => show win1_5.index t (0 : Fin 2) * 5000 + 1 * p.val = win1_5.index t (0 : Fin 2) * 5000 + p.val; omega
  | ⟨1, _⟩ => show win1_5.index t (1 : Fin 2) * 64 + 1 * q.val = q.val; omega

/-- Step `t`'s block of the second layer's aggregated features at (p, k) is the array's entry (5000 t + p, k). -/
theorem blk1_0 (c : Dev nD) (t : Fin cfg1.N) (p : Fin 5000) (k : Fin 64) :
    iblk1 V c 0 t (ix2 p k) = V c main_v39 (ix2 (arow1 t p) k) := by
  obtain ⟨e0, e1, e2, e3, e4, e5, e6, e7, e8, e9, e10, e11⟩ := idx_facts1 t
  show V c main_v39 (((cfg1.win 0).blk t).view.emb (ix2 p k)) = V c main_v39 (ix2 (arow1 t p) k)
  refine congrArg (V c main_v39) ?_
  funext a; apply Fin.ext
  match a with
  | ⟨0, _⟩ => show win1_0.index t (0 : Fin 2) * 5000 + 1 * p.val = win1_5.index t (0 : Fin 2) * 5000 + p.val; omega
  | ⟨1, _⟩ => show win1_0.index t (1 : Fin 2) * 64 + 1 * k.val = k.val; omega

/-- Step `t`'s block of the first layer's output at (p, k) is the array's entry (5000 t + p, k). -/
theorem blk1_1 (c : Dev nD) (t : Fin cfg1.N) (p : Fin 5000) (k : Fin 64) :
    iblk1 V c 1 t (ix2 p k) = V c main_v26 (ix2 (arow1 t p) k) := by
  obtain ⟨e0, e1, e2, e3, e4, e5, e6, e7, e8, e9, e10, e11⟩ := idx_facts1 t
  show V c main_v26 (((cfg1.win 1).blk t).view.emb (ix2 p k)) = V c main_v26 (ix2 (arow1 t p) k)
  refine congrArg (V c main_v26) ?_
  funext a; apply Fin.ext
  match a with
  | ⟨0, _⟩ => show win1_1.index t (0 : Fin 2) * 5000 + 1 * p.val = win1_5.index t (0 : Fin 2) * 5000 + p.val; omega
  | ⟨1, _⟩ => show win1_1.index t (1 : Fin 2) * 64 + 1 * k.val = k.val; omega

/-- The first weight matrix of the second layer is staged whole at every step. -/
theorem blk1_2 (c : Dev nD) (t : Fin cfg1.N) (y : S64x64.Idx) : iblk1 V c 2 t y = V c main_arg5 y := by
  obtain ⟨e0, e1, e2, e3, e4, e5, e6, e7, e8, e9, e10, e11⟩ := idx_facts1 t
  show V c main_arg5 (((cfg1.win 2).blk t).view.emb y) = V c main_arg5 y
  refine congrArg (V c main_arg5) ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The second weight matrix of the second layer is staged whole at every step. -/
theorem blk1_4 (c : Dev nD) (t : Fin cfg1.N) (y : S64x64.Idx) : iblk1 V c 4 t y = V c main_arg7 y := by
  obtain ⟨e0, e1, e2, e3, e4, e5, e6, e7, e8, e9, e10, e11⟩ := idx_facts1 t
  show V c main_arg7 (((cfg1.win 4).blk t).view.emb y) = V c main_arg7 y
  refine congrArg (V c main_arg7) ?_
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The second layer's bias row is staged whole at every step. -/
theorem blk1_3 (c : Dev nD) (t : Fin cfg1.N) (y : S1x64.Idx) : iblk1 V c 3 t y = V c main_v40 y := by
  obtain ⟨e0, e1, e2, e3, e4, e5, e6, e7, e8, e9, e10, e11⟩ := idx_facts1 t
  show V c main_v40 (((cfg1.win 3).blk t).view.emb y) = V c main_v40 y
  refine congrArg (V c main_v40) ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- What step `t` stores at a block entry is the layer's output at the array entry the block entry sits at. -/
theorem point1 (c : Dev nD) (t : Fin cfg1.N) (j : S5000x64.Idx) :
    k1_pay1 (iblk1 V c 0 t) (iblk1 V c 1 t) (iblk1 V c 2 t) (iblk1 V c 4 t) (iblk1 V c 3 t) j
      = layerOut1 (V c main_v39) (V c main_v26) (V c main_arg5) (V c main_arg7) (V c main_v40) (((cfg1.win 5).blk t).view.emb j) := by
  obtain ⟨p, q, rfl⟩ : ∃ (p : Fin 5000) (q : Fin 64), j = ix2 p q := ⟨j 0, j 1, eq_ix2 j⟩
  refine (pay1_apply (iblk1 V c 0 t) (iblk1 V c 1 t) (iblk1 V c 2 t) (iblk1 V c 4 t) (iblk1 V c 3 t) p q).trans ?_
  rw [emb1_5 t p q]
  unfold layerOut1
  exact affineRow_congr (fun k => blk1_0 V c t p k) (fun k => blk1_1 V c t p k) (funext fun y => blk1_2 V c t y)
    (funext fun y => blk1_4 V c t y) (fun q' => blk1_3 V c t (ix2 (0 : Fin 1) q')) q

/-- What step `t` writes back is block `t` of the layer's output. -/
theorem flushed1_eq (c : Dev nD) (t : Fin cfg1.N) :
    (dat1 V c).flushed 5 t = ((cfg1.win 5).blk t).view.read (Elt Ideal)
      (layerOut1 (V c main_v39) (V c main_v26) (V c main_arg5) (V c main_arg7) (V c main_v40)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  exact point1 V c t j

/-- An index of the result array lies in step `t`'s output block iff each coordinate is in the block's range. -/
theorem mem_outblk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every node's row is written back by the grid step that owns its 5000-row tile. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_outblk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The second kernel's output array after its region, whatever the region found in its operands' arrays. -/
theorem region1_value (c : Dev nD) :
    (dat1 V c).arrAt 5 cfg1.N = layerOut1 (V c main_v39) (V c main_v26) (V c main_arg5) (V c main_arg7) (V c main_v40) :=
  (dat1 V c).arrAt_eq_of_cover 5 (layerOut1 (V c main_v39) (V c main_v26) (V c main_arg5) (V c main_arg7) (V c main_v40))
    (fun t _ => flushed1_eq V c t) covered1

end Cert.KernelIdeal.Sage

end
-- ==== Proof.HostStages.lean ====
/-
  The host operations around the two dense kernels, read back. Before the first kernel the program slices the
  edge list into sources and targets, counts each node's incoming edges, inverts the count clamped below at one,
  gathers the source nodes' feature rows, adds them up per target node and scales each node's sum by its inverted
  count; it also reshapes the bias to a row. Between the kernels it does the same gather, sum and scaling on the
  first kernel's output. These are, operation for operation, the reference program's own stages, so each staged
  array is the reference's stage function of the argument arrays.
-/
import proofs.«116169_j61220463837359_1_alg».proof.Proof.Gen.KernelIdeal.Frame
import proofs.«116169_j61220463837359_1_alg».proof.Proof.Gen.ReferenceIdeal.Read
import Idealize.ShloMosaic.Lib.StableHlo.Run

set_option maxRecDepth 16384

noncomputable section

namespace Cert.KernelIdeal.Sage

open Cert.KernelIdeal Cert.KernelIdeal.Gen
open Cert.ReferenceIdeal.Read (val_main_v1 val_main_v3 val_main_v11 val_main_v24 val_main_v31 val_main_v37 val_main_v39
  val_main_v40 val_main_v43 val_main_v44)
open Idealize.ShloMosaic Idealize.ShloMosaic.TcCoe Idealize.SL.Sem Idealize.ShloMosaic.StableHlo

/-! ## The first stretch, from any contents `W` of the buffers -/

section First

variable (W : Valuation τ sig (Elt Ideal))

set_option maxHeartbeats 4000000 in
/-- The aggregated input features: the reference's stage of the node features and the edge list. -/
theorem first_agg : StableHlo.after (hostOps0 (F := Ideal)) W (Proc.devRef .tc main_v24)
    = val_main_v24 (F := Ideal) (W (Proc.devRef .tc main_arg0)) (W (Proc.devRef .tc main_arg1)) := by
  after_results_simp
  rfl

set_option maxHeartbeats 4000000 in
/-- The first layer's bias as a row. -/
theorem first_bias : StableHlo.after (hostOps0 (F := Ideal)) W (Proc.devRef .tc main_v25)
    = shapeCast S1x64 (W (Proc.devRef .tc main_arg3)) shapeCasts_S64_S1x64 := by
  after_results_simp
  rfl

set_option maxHeartbeats 4000000 in
/-- The edge sources. -/
theorem first_src : StableHlo.after (hostOps0 (F := Ideal)) W (Proc.devRef .tc main_v1)
    = val_main_v1 (F := Ideal) (W (Proc.devRef .tc main_arg1)) := by
  after_results_simp
  rfl

set_option maxHeartbeats 4000000 in
/-- The edge targets. -/
theorem first_dst : StableHlo.after (hostOps0 (F := Ideal)) W (Proc.devRef .tc main_v3)
    = val_main_v3 (F := Ideal) (W (Proc.devRef .tc main_arg1)) := by
  after_results_simp
  rfl

set_option maxHeartbeats 4000000 in
/-- The inverted clamped in-degrees. -/
theorem first_invdeg : StableHlo.after (hostOps0 (F := Ideal)) W (Proc.devRef .tc main_v11)
    = val_main_v11 (F := Ideal) (W (Proc.devRef .tc main_arg1)) := by
  after_results_simp
  rfl

set_option maxHeartbeats 4000000 in
/-- The first stretch writes no argument array. -/
theorem first_keeps : StableHlo.after (hostOps0 (F := Ideal)) W (Proc.devRef .tc main_arg0) = W (Proc.devRef .tc main_arg0)
    ∧ StableHlo.after (hostOps0 (F := Ideal)) W (Proc.devRef .tc main_arg1) = W (Proc.devRef .tc main_arg1)
    ∧ StableHlo.after (hostOps0 (F := Ideal)) W (Proc.devRef .tc main_arg2) = W (Proc.devRef .tc main_arg2)
    ∧ StableHlo.after (hostOps0 (F := Ideal)) W (Proc.devRef .tc main_arg4) = W (Proc.devRef .tc main_arg4)
    ∧ StableHlo.after (hostOps0 (F := Ideal)) W (Proc.devRef .tc main_arg5) = W (Proc.devRef .tc main_arg5)
    ∧ StableHlo.after (hostOps0 (F := Ideal)) W (Proc.devRef .tc main_arg6) = W (Proc.devRef .tc main_arg6)
    ∧ StableHlo.after (hostOps0 (F := Ideal)) W (Proc.devRef .tc main_arg7) = W (Proc.devRef .tc main_arg7) := by
  refine ⟨?_, ?_, ?_, ?_, ?_, ?_, ?_⟩ <;> after_results_simp

end First

/-! ## The second stretch, from any contents `W` of the buffers -/

section Second

variable (W : Valuation τ sig (Elt Ideal))

/-- The second layer's aggregation of an array `y` of node features along the edge list `x1`: gather the source
    rows, add them up per target node, scale by the inverted clamped in-degree. -/
def agg2 {F : FTy → Type} [FloatOps F] (y : (⟨Cert.ReferenceIdeal.S100000x64, .f32⟩ : BufTy).Contents (Elt F))
    (x1 : (⟨Cert.ReferenceIdeal.S2x1600000, .i32⟩ : BufTy).Contents (Elt F)) :
    (⟨Cert.ReferenceIdeal.S100000x64, .f32⟩ : BufTy).Contents (Elt F) :=
  mulf (Host.scatterAdd Cert.ReferenceIdeal.scatter_S100000x64_S1600000x1_S1600000x64_1_0_0_1 (val_main_v39 (F := F))
      (val_main_v40 (F := F) x1)
      (Host.gather Cert.ReferenceIdeal.gather_S100000x64_S1600000x1_S1600000x64_1_0_n_n_0_1_164 y (val_main_v37 (F := F) x1)))
    (val_main_v43 (F := F) x1)

/-- The reference's second aggregation is that aggregation of its first layer's output. -/
theorem val_v44_eq (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) :
    val_main_v44 (F := Ideal) x0 x1 x2 x3 x4 = agg2 (F := Ideal) (val_main_v31 (F := Ideal) x0 x1 x2 x3 x4) x1 := rfl

set_option maxHeartbeats 4000000 in
/-- The aggregated first-layer output, when the sources, targets and inverted degrees the stretch finds are the
    reference's stages of an edge list `x1`. -/
theorem second_agg (x1 : (⟨Cert.ReferenceIdeal.S2x1600000, .i32⟩ : BufTy).Contents (Elt Ideal))
    (hs : W (Proc.devRef .tc main_v1) = val_main_v1 (F := Ideal) x1) (hd : W (Proc.devRef .tc main_v3) = val_main_v3 (F := Ideal) x1)
    (hn : W (Proc.devRef .tc main_v11) = val_main_v11 (F := Ideal) x1) :
    StableHlo.after (hostOps1 (F := Ideal)) W (Proc.devRef .tc main_v39) = agg2 (F := Ideal) (W (Proc.devRef .tc main_v26)) x1 := by
  after_results_simp
  rw [hs, hd, hn]
  rfl

set_option maxHeartbeats 4000000 in
/-- The second layer's bias as a row. -/
theorem second_bias : StableHlo.after (hostOps1 (F := Ideal)) W (Proc.devRef .tc main_v40)
    = shapeCast S1x64 (W (Proc.devRef .tc main_arg6)) shapeCasts_S64_S1x64 := by
  after_results_simp
  rfl

set_option maxHeartbeats 4000000 in
/-- The second stretch writes neither the first kernel's output nor the second layer's weights. -/
theorem second_keeps : StableHlo.after (hostOps1 (F := Ideal)) W (Proc.devRef .tc main_v26) = W (Proc.devRef .tc main_v26)
    ∧ StableHlo.after (hostOps1 (F := Ideal)) W (Proc.devRef .tc main_arg5) = W (Proc.devRef .tc main_arg5)
    ∧ StableHlo.after (hostOps1 (F := Ideal)) W (Proc.devRef .tc main_arg7) = W (Proc.devRef .tc main_arg7) := by
  refine ⟨?_, ?_, ?_⟩ <;> after_results_simp

end Second

end Cert.KernelIdeal.Sage

end
-- ==== Proof.RefLayers.lean ====
/-
  The reference's two layers read at one entry. Each is a `dot_general` of the normalised neighbourhood sums with
  the first weight matrix, plus the bias broadcast over the nodes, plus a `dot_general` of the node features with
  the second weight matrix; the first layer is followed by the maximum with zero. At the extended reals a
  `dot_general` with one contracted axis is the plain sum over that axis, so entry (p, q) is the layer's output
  feature q of node p.
-/
import proofs.«116169_j61220463837359_1_alg».proof.Proof.Gen.ReferenceIdeal.Read
import proofs.«116169_j61220463837359_1_alg».proof.Proof.Layer

noncomputable section

open scoped BigOperators

namespace Cert.ReferenceIdeal.RefValue

open Cert.ReferenceIdeal Cert.ReferenceIdeal.Read Cert.Sage Idealize.ShloMosaic Idealize.ShloMosaic.ValueIdx

/-- The left operand of the first product at entry (p, q), summand k, is read at (p, k). -/
private theorem lidx_v25 (p : Fin 100000) (q k : Fin 64) : lidx_main_v25 (ix2 p q) k = ix2 p k :=
  funext fun a => match a with
    | ⟨0, _⟩ => rfl
    | ⟨1, _⟩ => rfl

/-- The right operand of the first product at entry (p, q), summand k, is read at (k, q). -/
private theorem ridx_v25 (p : Fin 100000) (q k : Fin 64) : ridx_main_v25 (ix2 p q) k = ix2 k q :=
  funext fun a => match a with
    | ⟨0, _⟩ => rfl
    | ⟨1, _⟩ => rfl

/-- The left operand of the second product at entry (p, q), summand k, is read at (p, k). -/
private theorem lidx_v29 (p : Fin 100000) (q k : Fin 64) : lidx_main_v29 (ix2 p q) k = ix2 p k :=
  funext fun a => match a with
    | ⟨0, _⟩ => rfl
    | ⟨1, _⟩ => rfl

/-- The right operand of the second product at entry (p, q), summand k, is read at (k, q). -/
private theorem ridx_v29 (p : Fin 100000) (q k : Fin 64) : ridx_main_v29 (ix2 p q) k = ix2 k q :=
  funext fun a => match a with
    | ⟨0, _⟩ => rfl
    | ⟨1, _⟩ => rfl

/-- The bias broadcast over the nodes is read, at entry (p, q), at q. -/
private theorem idx_v26_v27 (p : Fin 100000) (q : Fin 64) : idx_main_v26 (idx_main_v27 (ix2 p q)) = ix1 q :=
  funext fun a => match a with
    | ⟨0, _⟩ => rfl

/-- The left operand of the first product of the second layer at entry (p, q), summand k, is read at (p, k). -/
private theorem lidx_v45 (p : Fin 100000) (q k : Fin 64) : lidx_main_v45 (ix2 p q) k = ix2 p k :=
  funext fun a => match a with
    | ⟨0, _⟩ => rfl
    | ⟨1, _⟩ => rfl

/-- The right operand of the first product of the second layer at entry (p, q), summand k, is read at (k, q). -/
private theorem ridx_v45 (p : Fin 100000) (q k : Fin 64) : ridx_main_v45 (ix2 p q) k = ix2 k q :=
  funext fun a => match a with
    | ⟨0, _⟩ => rfl
    | ⟨1, _⟩ => rfl

/-- The left operand of the second product of the second layer at entry (p, q), summand k, is read at (p, k). -/
private theorem lidx_v49 (p : Fin 100000) (q k : Fin 64) : lidx_main_v49 (ix2 p q) k = ix2 p k :=
  funext fun a => match a with
    | ⟨0, _⟩ => rfl
    | ⟨1, _⟩ => rfl

/-- The right operand of the second product of the second layer at entry (p, q), summand k, is read at (k, q). -/
private theorem ridx_v49 (p : Fin 100000) (q k : Fin 64) : ridx_main_v49 (ix2 p q) k = ix2 k q :=
  funext fun a => match a with
    | ⟨0, _⟩ => rfl
    | ⟨1, _⟩ => rfl

/-- The second layer's bias broadcast over the nodes is read, at entry (p, q), at q. -/
private theorem idx_v46_v47 (p : Fin 100000) (q : Fin 64) : idx_main_v46 (idx_main_v47 (ix2 p q)) = ix1 q :=
  funext fun a => match a with
    | ⟨0, _⟩ => rfl

/-- Entry (p, q) of the first layer's output: the activation of node p's output feature q, the node's aggregated
    row being the normalised neighbourhood sum of the input features. -/
theorem layer1_apply (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (p : Fin 100000) (q : Fin 64) :
    val_main_v31 (F := Ideal) x0 x1 x2 x3 x4 (ix2 p q)
      = relu0 (affineRow (fun k => val_main_v24 (F := Ideal) x0 x1 (ix2 p k)) (fun k => x0 (ix2 p k)) x2 x4
          (fun q' => x3 (ix1 q')) q) := by
  rw [val_main_v31_apply, val_main_v30_apply, val_main_v28_apply, val_main_v25_apply, val_main_v27_apply,
    val_main_v26_apply, val_main_v29_apply, val_main_call0_v0_apply, val_main_call0_cst_apply]
  unfold relu0 affineRow
  simp only [Ideal.addf_def, Ideal.maximumf_def, Ideal.ofBits_def, lidx_v25, ridx_v25, lidx_v29, ridx_v29, idx_v26_v27]

/-- Entry (p, q) of the result: node p's output feature q in the second layer, whose aggregated row is the
    normalised neighbourhood sum of the first layer's output and whose own row is that output's row p. -/
theorem layer2_apply (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) (p : Fin 100000) (q : Fin 64) :
    val_main_v50 (F := Ideal) x0 x1 x2 x3 x4 x5 x6 x7 (ix2 p q)
      = affineRow (fun k => val_main_v44 (F := Ideal) x0 x1 x2 x3 x4 (ix2 p k))
          (fun k => val_main_v31 (F := Ideal) x0 x1 x2 x3 x4 (ix2 p k)) x5 x7 (fun q' => x6 (ix1 q')) q := by
  rw [val_main_v50_apply, val_main_v48_apply, val_main_v45_apply, val_main_v47_apply, val_main_v46_apply,
    val_main_v49_apply]
  unfold affineRow
  simp only [Ideal.addf_def, lidx_v45, ridx_v45, lidx_v49, ridx_v49, idx_v46_v47]

end Cert.ReferenceIdeal.RefValue

end
-- ==== Proof.KernelValue.lean ====
/-
  The kernel program's result array is the reference's last stage of the argument arrays.
  The first dense kernel finds, in the arrays it stages, the reference's aggregated input features, the node
  features, the first layer's weights and its bias as a row; so the array it leaves is the reference's first
  layer, entry by entry. The second kernel finds the same aggregation of that array, that array itself, the
  second layer's weights and bias; so the array it leaves is the reference's result, entry by entry.
-/
import proofs.«116169_j61220463837359_1_alg».proof.Proof.Region1
import proofs.«116169_j61220463837359_1_alg».proof.Proof.HostStages
import proofs.«116169_j61220463837359_1_alg».proof.Proof.RefLayers

set_option maxRecDepth 16384

noncomputable section

open scoped BigOperators

namespace Cert.KernelIdeal.Sage

open Cert.KernelIdeal Cert.KernelIdeal.Gen Cert.Sage
open Cert.ReferenceIdeal.Read (val_main_v1 val_main_v3 val_main_v11 val_main_v24 val_main_v31 val_main_v44 val_main_v50)
open Cert.ReferenceIdeal.RefValue (layer1_apply layer2_apply)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A 64-vector reshaped to a 1 x 64 row, read at (0, q), is the vector at q. -/
theorem bias_row (b : Vec Ideal S64 .f32) (q : Fin 64) :
    shapeCast S1x64 b shapeCasts_S64_S1x64 (ix2 (0 : Fin 1) q) = b (ix1 q) :=
  shapeCast_apply b shapeCasts_S64_S1x64 (ix2 (0 : Fin 1) q) (ix1 q)
    (by rw [Shape.rowMajor_val_one, Shape.rowMajor_val_two]; show q.val = 0 * 64 + q.val; omega)

/-- What the first kernel's region finds in the arrays it stages. -/
theorem entry0 (c : Dev nD) :
    V1 m ρ c main_v24 = val_main_v24 (F := Ideal) (m ((c : Thread nD τ).loc main_arg0)) (m ((c : Thread nD τ).loc main_arg1))
    ∧ V1 m ρ c main_arg0 = m ((c : Thread nD τ).loc main_arg0)
    ∧ V1 m ρ c main_arg2 = m ((c : Thread nD τ).loc main_arg2)
    ∧ V1 m ρ c main_arg4 = m ((c : Thread nD τ).loc main_arg4)
    ∧ V1 m ρ c main_v25 = shapeCast S1x64 (m ((c : Thread nD τ).loc main_arg3)) shapeCasts_S64_S1x64 :=
  ⟨first_agg (W0 m ρ c), (first_keeps (W0 m ρ c)).1, (first_keeps (W0 m ρ c)).2.2.1, (first_keeps (W0 m ρ c)).2.2.2.1,
    first_bias (W0 m ρ c)⟩

/-- The layer the first kernel computes from what it finds is the reference's first layer. -/
theorem layer1_fn (c : Dev nD) :
    layerOut0 (V1 m ρ c main_v24) (V1 m ρ c main_arg0) (V1 m ρ c main_arg2) (V1 m ρ c main_arg4) (V1 m ρ c main_v25)
      = val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  obtain ⟨h24, h0, h2, h4, h25⟩ := entry0 m ρ c
  rw [h24, h0, h2, h4, h25]
  funext i
  obtain ⟨p, q, rfl⟩ : ∃ (p : Fin 100000) (q : Fin 64), i = ix2 p q := ⟨i 0, i 1, eq_ix2 i⟩
  rw [layer1_apply]
  unfold layerOut0
  exact congrArg relu0 (affineRow_congr (fun k => rfl) (fun k => rfl) rfl rfl (fun q' => bias_row _ q') q)

/-- The first kernel's output array, at the boundary after its region, is the reference's first layer. -/
theorem layer1_value (c : Dev nD) :
    W2 m ρ c (Proc.devRef .tc main_v26)
      = val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  (W2_arr m ρ c 5).trans ((region0_value (V1 m ρ) c).trans (layer1_fn m ρ c))

/-- What the second kernel's region finds in the arrays it stages. -/
theorem entry1 (c : Dev nD) :
    V3 m ρ c main_v39 = val_main_v44 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
    ∧ V3 m ρ c main_v26 = val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
    ∧ V3 m ρ c main_arg5 = m ((c : Thread nD τ).loc main_arg5)
    ∧ V3 m ρ c main_arg7 = m ((c : Thread nD τ).loc main_arg7)
    ∧ V3 m ρ c main_v40 = shapeCast S1x64 (m ((c : Thread nD τ).loc main_arg6)) shapeCasts_S64_S1x64 := by
  have hk := first_keeps (W0 m ρ c)
  have hs : W2 m ρ c (Proc.devRef .tc main_v1) = val_main_v1 (F := Ideal) (m ((c : Thread nD τ).loc main_arg1)) :=
    (W2_of_ne m ρ c main_v1 (by decide)).trans (first_src (W0 m ρ c))
  have hd : W2 m ρ c (Proc.devRef .tc main_v3) = val_main_v3 (F := Ideal) (m ((c : Thread nD τ).loc main_arg1)) :=
    (W2_of_ne m ρ c main_v3 (by decide)).trans (first_dst (W0 m ρ c))
  have hn : W2 m ρ c (Proc.devRef .tc main_v11) = val_main_v11 (F := Ideal) (m ((c : Thread nD τ).loc main_arg1)) :=
    (W2_of_ne m ρ c main_v11 (by decide)).trans (first_invdeg (W0 m ρ c))
  have h5 : W2 m ρ c (Proc.devRef .tc main_arg5) = m ((c : Thread nD τ).loc main_arg5) :=
    (W2_of_ne m ρ c main_arg5 (by decide)).trans hk.2.2.2.2.1
  have h6 : W2 m ρ c (Proc.devRef .tc main_arg6) = m ((c : Thread nD τ).loc main_arg6) :=
    (W2_of_ne m ρ c main_arg6 (by decide)).trans hk.2.2.2.2.2.1
  have h7 : W2 m ρ c (Proc.devRef .tc main_arg7) = m ((c : Thread nD τ).loc main_arg7) :=
    (W2_of_ne m ρ c main_arg7 (by decide)).trans hk.2.2.2.2.2.2
  have hy := layer1_value m ρ c
  have hk2 := second_keeps (W2 m ρ c)
  refine ⟨?_, hk2.1.trans hy, hk2.2.1.trans h5, hk2.2.2.trans h7, ?_⟩
  · refine (second_agg (W2 m ρ c) (m ((c : Thread nD τ).loc main_arg1)) hs hd hn).trans ?_
    rw [hy]
    exact (val_v44_eq _ _ _ _ _).symm
  · refine (second_bias (W2 m ρ c)).trans ?_
    rw [h6]

/-- The kernel program's result array, at the last boundary, is the reference's last stage of the arguments. -/
theorem result_value (c : Dev nD) :
    W4 m ρ c (Proc.devRef .tc main_v41)
      = val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ((region1_value (V3 m ρ) c).trans ?_)
  obtain ⟨h39, h26, h5, h7, h40⟩ := entry1 m ρ c
  rw [h39, h26, h5, h7, h40]
  funext i
  obtain ⟨p, q, rfl⟩ : ∃ (p : Fin 100000) (q : Fin 64), i = ix2 p q := ⟨i 0, i 1, eq_ix2 i⟩
  rw [layer2_apply]
  unfold layerOut1
  exact affineRow_congr (fun k => rfl) (fun k => rfl) rfl rfl (fun q' => bias_row _ q') q

end Cert.KernelIdeal.Sage

end
-- ==== Proof.lean ====
/-
  Two layers of mean-aggregation graph convolution on 100000 nodes with 64 features and 1600000 edges: the kernel
  program against the plain reference, equal as extended reals.

  Both programs do the irregular part on the host with the same operations in the same order: slice the edge list
  into sources and targets, count each node's incoming edges, invert the count clamped below at one, gather the
  source nodes' rows, add them up per target node, scale each node's sum by its inverted count. They differ only in
  the dense part of each layer, agg * Wl + b + h * Wr: the reference takes two whole matrix products and adds a
  broadcast bias; the kernel program tiles the 100000 nodes into 20 blocks of 5000 rows and, per block, multiplies
  into a zero accumulator after narrowing the operands to bf16, adds the bias row, adds the second product, and in
  the first layer clamps below at zero. On the extended reals narrowing is the identity, a product into the zero
  accumulator is the plain sum over the 64 contracted features, and a row of a block is a row of the array, so at
  every (node, feature) both sides are the same sum in the same association. No law that needs finite entries is
  used: the precondition is never opened.

  The three frames: the two kernel programs' are the generated ones; the reference's is its generated run with the
  result dropped. The kernel program's value comes from its frame's launch stated once more with the result array
  named, read back through the two regions and the host operations between them.
-/
import proofs.«116169_j61220463837359_1_alg».proof.Defs
import proofs.«116169_j61220463837359_1_alg».proof.Proof.Gen.Kernel
import proofs.«116169_j61220463837359_1_alg».proof.Proof.Gen.Kernel.Skeleton
import proofs.«116169_j61220463837359_1_alg».proof.Proof.Gen.Kernel.Launch
import proofs.«116169_j61220463837359_1_alg».proof.Proof.Gen.Kernel.Points
import proofs.«116169_j61220463837359_1_alg».proof.Proof.Gen.Kernel.Frame
import proofs.«116169_j61220463837359_1_alg».proof.Proof.Gen.KernelIdeal
import proofs.«116169_j61220463837359_1_alg».proof.Proof.Gen.KernelIdeal.Skeleton
import proofs.«116169_j61220463837359_1_alg».proof.Proof.Gen.KernelIdeal.Launch
import proofs.«116169_j61220463837359_1_alg».proof.Proof.Gen.KernelIdeal.Points
import proofs.«116169_j61220463837359_1_alg».proof.Proof.Gen.KernelIdeal.Frame
import proofs.«116169_j61220463837359_1_alg».proof.Proof.Gen.ReferenceIdeal
import proofs.«116169_j61220463837359_1_alg».proof.Proof.Gen.ReferenceIdeal.Run
import proofs.«116169_j61220463837359_1_alg».proof.Proof.Gen.ReferenceIdeal.Read
import proofs.«116169_j61220463837359_1_alg».proof.Proof.Gen.Pre_finite_inputs
import proofs.«116169_j61220463837359_1_alg».proof.Proof.RunNamed
import proofs.«116169_j61220463837359_1_alg».proof.Proof.KernelValue
import Idealize.ShloMosaic.Adequacy
import Idealize.ShloMosaic.Init

noncomputable section

namespace Cert.Proof

open Idealize.ShloMosaic Idealize.SL.Sem

/-- The kernel program as printed runs to completion and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs to completion and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the reference's last
    stage of the kernel program's own argument arrays. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Sage.result_value m ρ c), (h c).2⟩)
    (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v50_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
